-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S5000x128 : Shape := ⟨2, ![5000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S50000x128, .f32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S50000x128, .f32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  One graph-convolution layer over 50000 nodes with 128 input and 128 output features, read entry by entry on the
  extended reals.

  * The dense layer `h = x · W`: entry (p, q) is the sum over κ < 128 of x(p, κ) · W(κ, q).
  * The closing step: out(p, q) = max (a(p, q) + b(q), 0) for an aggregated array `a` and a bias row `b`.

  Between the two sits the sparse aggregation (degrees from the edge list with self loops, the symmetric
  normalisation, a gather of the rows of `h`, a scatter-add into the target nodes). Both programs apply that same
  chain of host operations to `h` and the edge list, so it is carried as ONE function of the two and never opened:
  the two results agree as soon as the two `h` agree and the closing steps agree.
-/
import Idealize.ShloMosaic.Lib.ValueIdx
import Idealize.ShloMosaic.PureOps.Ideal.Laws

noncomputable section

namespace Cert.Gcn

open Idealize.ShloMosaic Idealize.ShloMosaic.ValueIdx

/-- The dense layer: entry (p, q) of `x · W` as the exact sum over the 128 input features. -/
def lin (x : (⟨2, ![50000, 128]⟩ : Shape).Idx → EReal) (w : (⟨2, ![128, 128]⟩ : Shape).Idx → EReal) :
    (⟨2, ![50000, 128]⟩ : Shape).Idx → EReal :=
  fun i => ∑ κ : Fin 128, x (ix2 (i 0) κ) * w (ix2 κ (i 1))

theorem lin_apply (x : (⟨2, ![50000, 128]⟩ : Shape).Idx → EReal) (w : (⟨2, ![128, 128]⟩ : Shape).Idx → EReal)
    (p : Fin 50000) (q : Fin 128) : lin x w (ix2 p q) = ∑ κ : Fin 128, x (ix2 p κ) * w (ix2 κ q) := rfl

/-- The closing step: add the bias of the column, then the positive part. -/
def epi (a : (⟨2, ![50000, 128]⟩ : Shape).Idx → EReal) (b : (⟨1, ![128]⟩ : Shape).Idx → EReal) :
    (⟨2, ![50000, 128]⟩ : Shape).Idx → EReal :=
  fun i => max (a i + b (ix1 (i 1))) (Ideal.ofBits .f32 0x00000000#32)

theorem epi_apply (a : (⟨2, ![50000, 128]⟩ : Shape).Idx → EReal) (b : (⟨1, ![128]⟩ : Shape).Idx → EReal)
    (p : Fin 50000) (q : Fin 128) : epi a b (ix2 p q) = max (a (ix2 p q) + b (ix1 q)) (Ideal.ofBits .f32 0x00000000#32) := rfl

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
/-
  The first kernel region: the dense layer, 5000 rows at a time.

  Grid point t (t < 10) reads rows 5000·t … 5000·t + 4999 of `x` and all of `W`, and writes the same rows of the
  result: entry (p, q) of its block is ∑ κ < 128, x(5000·t + p, κ) · W(κ, q) — the narrowing of both operands to
  bf16 changes nothing on the extended reals, and a product accumulated into zero is the plain sum. The ten blocks
  tile the 50000 rows (row r lies in block r / 5000), so after the region the whole array is `Gcn.lin x W`.
-/
import proofs.«147101_j15290083573912_1_alg».proof.Proof.Gen.KernelIdeal.Frame
import proofs.«147101_j15290083573912_1_alg».proof.Proof.Spec
import proofs.«147101_j15290083573912_1_alg».proof.Proof.LibPlainDot
import Idealize.ShloMosaic.Lib.Pipeline.Value
import Idealize.ShloMosaic.Lib.ValueIdx

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at an entry: the sum over the 128 input features of the loaded blocks' products. -/
theorem product_apply (b0 : Vec Ideal S5000x128 .f32) (b1 : Vec Ideal S128x128 .f32) (p : Fin 5000) (q : Fin 128) :
    k0_pay1 (F := Ideal) b0 b1 (ix2 p q) = ∑ κ : Fin 128, b0 (ix2 p κ) * b1 (ix2 κ q) := by
  unfold k0_pay1
  exact Cert.PlainDot.matmul_zero_apply ⟨rfl, rfl, rfl, rfl, rfl, rfl⟩ rfl rfl none
    (truncf .bf16 b0 bitsLt_bf16_f32) (truncf .bf16 b1 bitsLt_bf16_f32) p q

/-- The same against whole arrays: if the first block holds the rows from `off` on and the second all of `W`, the
    stored entry (p, q) is entry (off + p, q) of the dense layer. -/
theorem product_of_blocks (a0 : (⟨2, ![50000, 128]⟩ : Shape).Idx → EReal) (a1 : (⟨2, ![128, 128]⟩ : Shape).Idx → EReal)
    (b0 : Vec Ideal S5000x128 .f32) (b1 : Vec Ideal S128x128 .f32) (off : Nat) (hoff : off + 5000 ≤ 50000)
    (h0 : ∀ (p : Fin 5000) (κ : Fin 128), b0 (ix2 p κ) = a0 (ix2 ⟨off + p.val, by omega⟩ κ))
    (h1 : ∀ (κ q : Fin 128), b1 (ix2 κ q) = a1 (ix2 κ q))
    (p : Fin 5000) (q : Fin 128) :
    k0_pay1 (F := Ideal) b0 b1 (ix2 p q) = Cert.Gcn.lin a0 a1 (ix2 ⟨off + p.val, by omega⟩ q) := by
  rw [product_apply, Cert.Gcn.lin_apply]
  exact Finset.sum_congr rfl fun κ _ => by rw [h0, h1]

/-- The printed index maps over the grid: the row windows sit at block t, the weight window at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt N_0

/-- What point t writes back is block t of the dense layer of the arrays as the region finds them. -/
theorem flushed_eq (c : Dev nD) (t : Fin cfg0.N) :
    (dat0 V c).flushed 2 t = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  have ht := point_lt t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.lin (V c main_arg0) (V c main_arg2) (((cfg0.win 2).blk t).view.emb (ix2 p q))
  have hout : ((cfg0.win 2).blk t).view.emb (ix2 p q) = ix2 (n0 := 50000) (n1 := 128) ⟨t.val * 5000 + p.val, by omega⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hout]
  refine product_of_blocks (V c main_arg0) (V c main_arg2) (iblk0 V c 0 t) (iblk0 V c 1 t) (t.val * 5000) (by omega) ?_ ?_ p q
  · intro p κ
    show V c main_arg0 (((cfg0.win 0).blk t).view.emb (ix2 p κ)) = V c main_arg0 _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * κ.val = κ.val; omega
  · intro κ q
    show V c main_arg2 (((cfg0.win 1).blk t).view.emb (ix2 κ q)) = V c main_arg2 _
    refine congrArg (V c main_arg2) ?_
    funext a; apply Fin.ext
    match a with
    | ⟨0, _⟩ => show win0_1.index t (0 : Fin 2) * 128 + 1 * κ.val = κ.val; omega
    | ⟨1, _⟩ => show win0_1.index t (1 : Fin 2) * 128 + 1 * q.val = q.val; omega

/-- An index of the result array is in point t's block iff each coordinate is in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- The ten blocks tile the rows: row r is in block r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < cfg0.N := lt_of_lt_of_eq (by omega : (i 0).val / 5000 < 10) N_0.symm
  obtain ⟨-, -, -, -, e4, e5⟩ := index_facts ⟨(i 0).val / 5000, hlt⟩
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- After the region the result array is the dense layer of the arrays the region found. -/
theorem dense_array (c : Dev nD) : (dat0 V c).arrAt 2 cfg0.N = Cert.Gcn.lin (V c main_arg0) (V c main_arg2) :=
  (dat0 V c).arrAt_eq_of_cover 2 _ (fun t _ => flushed_eq V c t) cover

end Cert.KernelIdeal.DenseValue

end
-- ==== Proof.Region1.lean ====
/-
  The second kernel region: the closing step, 5000 rows at a time.

  Grid point t (t < 10) reads rows 5000·t … 5000·t + 4999 of the aggregated array and the one-row bias, and writes
  the same rows of the result: entry (p, q) of its block is max (a(5000·t + p, q) + b(0, q), 0). The ten blocks tile
  the 50000 rows, so after the region the whole array is `Gcn.epi a b`, the bias row read as a vector.
-/
import proofs.«147101_j15290083573912_1_alg».proof.Proof.Gen.KernelIdeal.Frame
import proofs.«147101_j15290083573912_1_alg».proof.Proof.Spec
import Idealize.ShloMosaic.Lib.Pipeline.Value
import Idealize.ShloMosaic.Lib.ValueIdx

set_option maxRecDepth 16384

noncomputable section

namespace Cert.KernelIdeal.ClosingValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at an entry: the loaded entry plus the bias of its column, then the positive part. -/
theorem closing_apply (b0 : Vec Ideal S5000x128 .f32) (b1 : Vec Ideal S1x128 .f32) (p : Fin 5000) (q : Fin 128) :
    k1_pay1 (F := Ideal) b0 b1 (ix2 p q) = max (b0 (ix2 p q) + b1 (ix2 (0 : Fin 1) q)) (Ideal.ofBits .f32 0x00000000#32) := by
  unfold k1_pay1
  show max (shapeCast S5000x128 b0 shapeCasts_S5000x128_S5000x128 (ix2 p q)
      + broadcastTo S5000x128 (shapeCast S1x128 b1 shapeCasts_S1x128_S1x128) broadcasts_S1x128_S5000x128 (ix2 p q))
      (Ideal.ofBits .f32 0x00000000#32) = _
  rw [shapeCast_self, shapeCast_self, broadcastTo_apply b1 broadcasts_S1x128_S5000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])]

/-- The same against whole arrays: if the first block holds the rows from `off` on and the second the bias row, the
    stored entry (p, q) is entry (off + p, q) of the closing step. -/
theorem closing_of_blocks (a0 : (⟨2, ![50000, 128]⟩ : Shape).Idx → EReal) (a1 : (⟨2, ![1, 128]⟩ : Shape).Idx → EReal)
    (b0 : Vec Ideal S5000x128 .f32) (b1 : Vec Ideal S1x128 .f32) (off : Nat) (hoff : off + 5000 ≤ 50000)
    (h0 : ∀ (p : Fin 5000) (q : Fin 128), b0 (ix2 p q) = a0 (ix2 ⟨off + p.val, by omega⟩ q))
    (h1 : ∀ (q : Fin 128), b1 (ix2 (0 : Fin 1) q) = a1 (ix2 (0 : Fin 1) q))
    (p : Fin 5000) (q : Fin 128) :
    k1_pay1 (F := Ideal) b0 b1 (ix2 p q) = Cert.Gcn.epi a0 (fun k => a1 (ix2 (0 : Fin 1) (k 0))) (ix2 ⟨off + p.val, by omega⟩ q) := by
  rw [closing_apply, h0, h1]
  rfl

/-- The printed index maps over the grid: the row windows sit at block t, the bias window at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := lt_of_lt_of_eq t.isLt N_1

/-- What point t writes back is block t of the closing step of the arrays as the region finds them. -/
theorem flushed_eq (c : Dev nD) (t : Fin cfg1.N) :
    (dat1 V c).flushed 2 t = ((cfg1.win 2).blk t).view.read (Elt Ideal)
      (Cert.Gcn.epi (V c main_v43) (fun k => V c main_v44 (ix2 (0 : Fin 1) (k 0)))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts t
  have ht := point_lt t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Gcn.epi (V c main_v43) (fun k => V c main_v44 (ix2 (0 : Fin 1) (k 0))) (((cfg1.win 2).blk t).view.emb (ix2 p q))
  have hout : ((cfg1.win 2).blk t).view.emb (ix2 p q) = ix2 (n0 := 50000) (n1 := 128) ⟨t.val * 5000 + p.val, by omega⟩ q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hout]
  refine closing_of_blocks (V c main_v43) (V c main_v44) (iblk1 V c 0 t) (iblk1 V c 1 t) (t.val * 5000) (by omega) ?_ ?_ p q
  · intro p q
    show V c main_v43 (((cfg1.win 0).blk t).view.emb (ix2 p q)) = V c main_v43 _
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  · intro q
    show V c main_v44 (((cfg1.win 1).blk t).view.emb (ix2 (0 : Fin 1) q)) = V c main_v44 _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega

/-- An index of the result array is in point t's block iff each coordinate is in the block's range. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks tile the rows: row r is in block r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hlt : (i 0).val / 5000 < cfg1.N := lt_of_lt_of_eq (by omega : (i 0).val / 5000 < 10) N_1.symm
  obtain ⟨-, -, -, -, e4, e5⟩ := index_facts ⟨(i 0).val / 5000, hlt⟩
  refine ⟨⟨(i 0).val / 5000, hlt⟩, flush1_2 _, ?_⟩
  rw [mem_block]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- After the region the result array is the closing step of the arrays the region found. -/
theorem closing_array (c : Dev nD) :
    (dat1 V c).arrAt 2 cfg1.N = Cert.Gcn.epi (V c main_v43) (fun k => V c main_v44 (ix2 (0 : Fin 1) (k 0))) :=
  (dat1 V c).arrAt_eq_of_cover 2 _ (fun t _ => flushed_eq V c t) cover

end Cert.KernelIdeal.ClosingValue

end
-- ==== Proof.RefValue.lean ====
/-
  The reference, read: its result is the closing step (bias, positive part) of the aggregation chain applied to the
  dense product `x · W` and the edge list.

  The aggregation chain is named here once, `agg h e`, from the reference's own stages with `h` in the place of the
  dense product; the kernel's program applies the same chain to its own `h`. The host's matrix product is the exact
  sum over the contraction index at every entry, which is `Gcn.lin`.
-/
import proofs.«147101_j15290083573912_1_alg».proof.Proof.RefRead
import proofs.«147101_j15290083573912_1_alg».proof.Proof.Spec
import proofs.«147101_j15290083573912_1_alg».proof.Proof.LibPlainDot

noncomputable section

namespace Cert.ReferenceIdeal.RefValue

open Cert.ReferenceIdeal Cert.ReferenceIdeal.Gen Cert.ReferenceIdeal.PatchedRead
open Idealize.ShloMosaic Idealize.ShloMosaic.ValueIdx

variable {F : FTy → Type} [FloatOps F]

/-- The sparse aggregation as one function of the transformed features `h` and the edge list `e`: gather the rows of
    `h` at the sources, scale each by its edge's normalisation, scatter-add into the targets (self loops included). -/
def agg (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S850000x1_S850000x128_1_0_0_1 (val_main_v41 (F := F)) (val_main_v42 (F := F) e)
    (mulf (Host.gather gather_S50000x128_S850000x1_S850000x128_1_0_n_n_0_1_1128 h (val_main_v36 (F := F) e)) (val_main_v39 (F := F) e))

/-- The reference's aggregated array is the chain applied to its dense product. -/
theorem aggregated_eq (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = agg (val_main_v7 (F := F) x0 x2) x1 := rfl

/-- The host's matrix product, entry by entry, is the sum over the 128 input features. -/
theorem dense_eq (x0 : (⟨S50000x128, .f32⟩ : BufTy).Contents (Elt Ideal)) (x2 : (⟨S128x128, .f32⟩ : BufTy).Contents (Elt Ideal)) :
    val_main_v7 (F := Ideal) x0 x2 = Cert.Gcn.lin x0 x2 := by
  funext i
  obtain ⟨p, q, rfl⟩ : ∃ (p : Fin 50000) (q : Fin 128), i = ix2 p q := ⟨i 0, i 1, eq_ix2 i⟩
  unfold val_main_v7
  exact Cert.PlainDot.dotGeneral_apply ⟨rfl, rfl, rfl, rfl, rfl, rfl⟩ rfl rfl none x0 x2 p q

/-- The bias row as the reference broadcasts it: the entry of column q, whatever the row. -/
theorem bias_index (i : S50000x128.Idx) : idx_main_v44 (idx_main_v45 i) = ix1 (i 1) :=
  funext fun a => match a with | ⟨0, _⟩ => rfl

/-- The reference's result: the closing step of the aggregation of `x · W`. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v47 (F := Ideal) x0 x1 x2 x3 = Cert.Gcn.epi (agg (F := Ideal) (Cert.Gcn.lin x0 x2) x1) x3 := by
  funext i
  rw [val_main_v47_apply, val_main_v46_apply, val_main_v45_apply, val_main_v44_apply, val_main_call1_v0_apply,
    val_main_call1_cst_apply, aggregated_eq, dense_eq, bias_index]
  rfl

end Cert.ReferenceIdeal.RefValue

end
-- ==== Proof.KernelValue.lean ====
/-
  The kernel's result buffer after the run, as one function of the four arguments.

  Read backwards through @main: the result buffer is the second region's output array, the closing step of what
  that region finds in the aggregated buffer and the reshaped bias; the aggregated buffer is the aggregation chain
  applied to what the first region left in its output array and to the index vectors the first host stretch built
  from the edge list; and the first region's output array is the dense layer of the launch contents of `x` and `W`.
  The aggregation chain is the reference's own (`RefValue.agg`): the same host operations on the same operands.
-/
import proofs.«147101_j15290083573912_1_alg».proof.Proof.KernelRun
import proofs.«147101_j15290083573912_1_alg».proof.Proof.Region0
import proofs.«147101_j15290083573912_1_alg».proof.Proof.Region1
import proofs.«147101_j15290083573912_1_alg».proof.Proof.RefValue
import Idealize.ShloMosaic.Lib.StableHlo.Run
import Idealize.ShloMosaic.Lib.Pipeline.Value

set_option maxRecDepth 16384

noncomputable section

namespace Cert.KernelIdeal.OutValue

open Cert.KernelIdeal Cert.KernelIdeal.Gen
open Idealize.ShloMosaic Idealize.ShloMosaic.TcCoe Idealize.ShloMosaic.ValueIdx Idealize.SL.Sem
open Idealize.ShloMosaic.StableHlo

section Host

variable {F : FTy → Type} [FloatOps F]
variable (m : (ℓ : Loc nD τ sig) → Buf (Elt F) ℓ) (ρ : Dev nD → PrngReg)

/-- The first host stretch only builds index vectors: `x` is as launched when the first region is entered. -/
theorem entry_x (c : Dev nD) : W1 m ρ c (Proc.devRef .tc main_arg0) = m ((c.tc : Thread nD τ).loc main_arg0) := by
  show StableHlo.after hostOps0 (W0 m ρ c) (Proc.devRef .tc main_arg0) = _
  after_results <;> rfl

/-- So is `W`. -/
theorem entry_w (c : Dev nD) : W1 m ρ c (Proc.devRef .tc main_arg2) = m ((c.tc : Thread nD τ).loc main_arg2) := by
  show StableHlo.after hostOps0 (W0 m ρ c) (Proc.devRef .tc main_arg2) = _
  after_results <;> rfl

/-- The source vector (edge sources, then every node once) after the first region: the first region does not write
    it, and the first host stretch built it from the edge list as the reference does. -/
theorem sources_eq (c : Dev nD) :
    W2 m ρ c (Proc.devRef .tc main_v5)
      = Cert.ReferenceIdeal.PatchedRead.val_main_v5 (F := F) (m ((c.tc : Thread nD τ).loc main_arg1)) := by
  rw [W2_of_ne m ρ c main_v5 (by decide)]
  show StableHlo.after hostOps0 (W0 m ρ c) (Proc.devRef .tc main_v5) = _
  after_results <;> rfl

/-- The target vector (edge targets, then every node once) after the first region. -/
theorem targets_eq (c : Dev nD) :
    W2 m ρ c (Proc.devRef .tc main_v6)
      = Cert.ReferenceIdeal.PatchedRead.val_main_v6 (F := F) (m ((c.tc : Thread nD τ).loc main_arg1)) := by
  rw [W2_of_ne m ρ c main_v6 (by decide)]
  show StableHlo.after hostOps0 (W0 m ρ c) (Proc.devRef .tc main_v6) = _
  after_results <;> rfl

/-- The bias after the first region is as launched. -/
theorem bias_kept (c : Dev nD) : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results <;> rfl

/-- The aggregated buffer when the second region is entered: the aggregation chain applied to the first region's
    output array and the edge list. -/
theorem aggregated_eq (c : Dev nD) :
    W5 m ρ c (Proc.devRef .tc main_v43)
      = Cert.ReferenceIdeal.RefValue.agg (F := F) (W2 m ρ c (Proc.devRef .tc main_v7)) (m ((c.tc : Thread nD τ).loc main_arg1)) := by
  show StableHlo.after hostOps1_2 (StableHlo.after hostOps1_1 (StableHlo.after hostOps1 (W2 m ρ c))) (Proc.devRef .tc main_v43) = _
  after_results_simp
  rw [sources_eq m ρ c, targets_eq m ρ c]
  rfl

/-- The reshaped bias when the second region is entered. -/
theorem bias_row_eq (c : Dev nD) :
    W5 m ρ c (Proc.devRef .tc main_v44)
      = shapeCast S1x128 (m ((c.tc : Thread nD τ).loc main_arg3)) shapeCasts_S128_S1x128 := by
  show StableHlo.after hostOps1_2 (StableHlo.after hostOps1_1 (StableHlo.after hostOps1 (W2 m ρ c))) (Proc.devRef .tc main_v44) = _
  after_results_simp
  rw [bias_kept m ρ c]
  rfl

end Host

/-- A vector of 128 entries reshaped to one row, read at (0, q), is entry q. -/
theorem row_of_vector {α : Type} (x : S128.Idx → α) (k : S128.Idx) :
    shapeCast S1x128 x shapeCasts_S128_S1x128 (ix2 (0 : Fin 1) (k 0)) = x k :=
  shapeCast_apply x shapeCasts_S128_S1x128 (ix2 (0 : Fin 1) (k 0)) k (by
    rw [Shape.rowMajor_val_one, Shape.rowMajor_val_two]
    show (k 0).val = 0 * 128 + (k 0).val
    omega)

variable (m : (ℓ : Loc nD τ sig) → Buf (Elt Ideal) ℓ) (ρ : Dev nD → PrngReg)

/-- THE RESULT: the buffer @main returns ends at the closing step of the aggregation of `x · W`. -/
theorem result_eq (c : Dev nD) :
    W6 m ρ c (Proc.devRef .tc main_v45)
      = Cert.Gcn.epi (Cert.ReferenceIdeal.RefValue.agg (F := Ideal)
          (Cert.Gcn.lin (m ((c.tc : Thread nD τ).loc main_arg0)) (m ((c.tc : Thread nD τ).loc main_arg2)))
          (m ((c.tc : Thread nD τ).loc main_arg1)))
        (m ((c.tc : Thread nD τ).loc main_arg3)) := by
  have hdense : W2 m ρ c (Proc.devRef .tc main_v7)
      = Cert.Gcn.lin (m ((c.tc : Thread nD τ).loc main_arg0)) (m ((c.tc : Thread nD τ).loc main_arg2)) := by
    refine (W2_arr m ρ c 2).trans ?_
    refine (Cert.KernelIdeal.DenseValue.dense_array (V1 m ρ) c).trans ?_
    show Cert.Gcn.lin (W1 m ρ c (Proc.devRef .tc main_arg0)) (W1 m ρ c (Proc.devRef .tc main_arg2)) = _
    rw [entry_x m ρ c, entry_w m ρ c]
  refine (W6_arr m ρ c 2).trans ?_
  refine (Cert.KernelIdeal.ClosingValue.closing_array (V5 m ρ) c).trans ?_
  show Cert.Gcn.epi (W5 m ρ c (Proc.devRef .tc main_v43)) (fun k => W5 m ρ c (Proc.devRef .tc main_v44) (ix2 (0 : Fin 1) (k 0))) = _
  rw [aggregated_eq m ρ c, bias_row_eq m ρ c, hdense]
  refine congrArg (Cert.Gcn.epi _) ?_
  funext k
  exact row_of_vector _ k

/-- The run of the kernel's program, its result named. -/
theorem run : θ_run defs (onTc (τ := τ) (main (F := Ideal))) ⟨m, fun _ => 0, ρ⟩ (fun r => ∀ c : Dev nD,
      r.2.mem ((c.tc : Thread nD τ).loc main_v45)
        = Cert.Gcn.epi (Cert.ReferenceIdeal.RefValue.agg (F := Ideal)
            (Cert.Gcn.lin (m ((c.tc : Thread nD τ).loc main_arg0)) (m ((c.tc : Thread nD τ).loc main_arg2)))
            (m ((c.tc : Thread nD τ).loc main_arg1)))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩)
    (Cert.KernelIdeal.OutRun.run_out m ρ)

end Cert.KernelIdeal.OutValue

end
-- ==== Proof.lean ====
/-
  One graph-convolution layer with a positive part, on 50000 nodes and 800000 edges with self loops added:
  out = max (A (x · W) + b, 0), where A gathers the rows of x · W at the edge sources, scales each by
  deg(source)^(-1/2) · deg(target)^(-1/2) and adds them into the edge targets.

  The kernel's program computes x · W in a first tiled region (operands narrowed to bf16, accumulated in f32) and the
  closing step max (· + b, 0) in a second one, with the aggregation A as host operations between them; the reference
  does everything with host operations. On the extended reals the narrowing is the identity, a product accumulated
  into zero and the host's product are the same sum over the 128 input features at every entry, the aggregation is
  literally the same chain of operations on both sides (carried as one function, never opened), and both closing
  steps are entry (p, q) ↦ max (a(p, q) + b(q), 0). So both results are `Gcn.epi (agg (Gcn.lin x W) e) b`. No law of
  the extended reals that needs finite operands is used, so the precondition is not opened.

  The three programs run, without fault and with their arguments unchanged: the two kernel programs by their frame
  certificates, the reference by its run read back. The kernel and its idealization differ by no rewrite.
-/
import proofs.«147101_j15290083573912_1_alg».proof.Defs
import proofs.«147101_j15290083573912_1_alg».proof.Proof.Gen.Kernel
import proofs.«147101_j15290083573912_1_alg».proof.Proof.Gen.Kernel.Frame
import proofs.«147101_j15290083573912_1_alg».proof.Proof.Gen.KernelIdeal
import proofs.«147101_j15290083573912_1_alg».proof.Proof.Gen.KernelIdeal.Frame
import proofs.«147101_j15290083573912_1_alg».proof.Proof.Gen.ReferenceIdeal
import proofs.«147101_j15290083573912_1_alg».proof.Proof.Gen.Pre_finite_inputs
import proofs.«147101_j15290083573912_1_alg».proof.Proof.KernelValue
import proofs.«147101_j15290083573912_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.PatchedRun.run (F := Ideal) m ρ)

/-- Both programs end at `Gcn.epi (agg (Gcn.lin x W) e) b` of arguments that agree. -/
theorem algebraic : Cert.algebraic_KernelIdeal_ReferenceIdeal := by
  intro m ρ m' ρ' _ hagree
  refine ⟨_, Cert.KernelIdeal.OutValue.run m ρ, ?_⟩
  refine (θ_run Cert.ReferenceIdeal.defs _ _).mono (fun _ h c => ⟨(h c).1.trans ?_, (h c).2⟩)
    (Cert.ReferenceIdeal.PatchedRun.run (F := Ideal) m' ρ')
  rw [Cert.ReferenceIdeal.PatchedRead.val_main_v47_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
